-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x64 : Shape := ⟨2, ![4000, 64]⟩
abbrev S1700000x64 : Shape := ⟨2, ![1700000, 64]⟩
abbrev S1x64 : Shape := ⟨2, ![1, 64]⟩
abbrev S100000x32 : Shape := ⟨2, ![100000, 32]⟩
abbrev S4000x32 : Shape := ⟨2, ![4000, 32]⟩
abbrev S1700000x32 : Shape := ⟨2, ![1700000, 32]⟩
abbrev S1x32 : Shape := ⟨2, ![1, 32]⟩

abbrev nBuf : Space → Nat
  | .hbm => 77
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x32, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x32, .f32⟩
  | .hbm, ⟨67, _⟩ => ⟨S1700000x1, .f32⟩
  | .hbm, ⟨68, _⟩ => ⟨S1700000x32, .f32⟩
  | .hbm, ⟨69, _⟩ => ⟨S1700000x32, .f32⟩
  | .hbm, ⟨70, _⟩ => ⟨S_, .f32⟩
  | .hbm, ⟨71, _⟩ => ⟨S100000x32, .f32⟩
  | .hbm, ⟨72, _⟩ => ⟨S1700000x1, .i32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x32, .f32⟩
  | .local _ .vmem, ⟨9, _⟩ => ⟨S4000x32, .f32⟩
  | .local _ .vmem, ⟨10, _⟩ => ⟨S4000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x64_S64x64_S4000x64_1_0_0_1_n_n_wf : DotDims.WF S4000x64 S64x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x32_S4000x32_1_0_0_1_n_n_wf : DotDims.WF S4000x64 S64x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x32.size a ≤ S100000x32.size a
  hwx1_3 : ∀ i : grid1.Coords, EltTy.bits .f32 = 32 ∨ (Rect.block (s := S100000x32) S4000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S4000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .i1⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x32, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x32, .f32⟩
  | .hbm, ⟨76, _⟩ => ⟨S1700000x1, .f32⟩
  | .hbm, ⟨77, _⟩ => ⟨S1700000x32, .f32⟩
  | .hbm, ⟨78, _⟩ => ⟨S1700000x32, .f32⟩
  | .hbm, ⟨79, _⟩ => ⟨S_, .f32⟩
  | .hbm, ⟨80, _⟩ => ⟨S100000x32, .f32⟩
  | .hbm, ⟨81, _⟩ => ⟨S1700000x1, .i32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Layers.lean ====
/-
  The two graph-convolution layers as whole-array functions.

  A layer maps node features h to  A_hat (h W) + b,  where A_hat is the symmetrically normalised adjacency with self
  loops: every edge (s, d) contributes  norm(s, d) * (h W)[s]  to row d.  Read as array operations this is a gather of
  rows along the source indices, a scaling of each gathered row by the edge's coefficient, and a scatter-add along the
  destination indices.  Between the two layers sits the leaky rectifier  z |-> z if z > 0 else 0.01 z.

  The dense part of a layer, h W, is written index by index as the plain sum over the contracted axis; the sparse part
  is kept as the array operations themselves, applied to whatever dense result goes in.
-/
import proofs.«178176_j85633057948392_1_alg».proof.KernelIdeal
import Idealize.ShloMosaic.PureOps.Ideal
import Idealize.ShloMosaic.Lib.ValueIdx

noncomputable section

namespace Cert.KernelIdeal.Layers

open Idealize.ShloMosaic Idealize.ShloMosaic.ValueIdx Cert.KernelIdeal
open Cert.KernelIdeal.Facts₀

/-! ## The dense parts, index by index, on the extended reals -/

/-- First layer's dense map: entry (p, q) of x W1 is the sum over k of x(p, k) W1(k, q). -/
def dense1 (x : FVec Ideal S100000x64 .f32) (w : FVec Ideal S64x64 .f32) : FVec Ideal S100000x64 .f32 :=
  fun i => ∑ k : Fin 64, x (ix2 (n0 := 100000) (n1 := 64) (i 0) k) * w (ix2 (n0 := 64) (n1 := 64) k (i 1))

theorem dense1_apply (x : FVec Ideal S100000x64 .f32) (w : FVec Ideal S64x64 .f32) (p : Fin 100000) (q : Fin 64) :
    dense1 x w (ix2 p q) = ∑ k : Fin 64, x (ix2 p k) * w (ix2 k q) := rfl

/-- The leaky rectifier on one extended real: z where z > 0, the fixed small slope times z elsewhere. -/
def leaky (z : Ideal .f32) : Ideal .f32 :=
  Scalar.select (FloatOps.cmpf (F := Ideal) .ogt z (Ideal.ofBits .f32 0x00000000#32)) z (Ideal.ofBits .f32 0x3C23D70A#32 * z)

/-- Second layer's dense map with the first layer's bias and rectifier folded in: entry (p, q) is the sum over k of
    leaky(a(p, k) + b(0, k)) W2(k, q), where a is the first layer's aggregate and b its bias as one row. -/
def dense2 (a : FVec Ideal S100000x64 .f32) (b : FVec Ideal S1x64 .f32) (w : FVec Ideal S64x32 .f32) : FVec Ideal S100000x32 .f32 :=
  fun i => ∑ k : Fin 64, leaky (a (ix2 (n0 := 100000) (n1 := 64) (i 0) k) + b (ix2 (n0 := 1) (n1 := 64) 0 k)) * w (ix2 (n0 := 64) (n1 := 32) k (i 1))

theorem dense2_apply (a : FVec Ideal S100000x64 .f32) (b : FVec Ideal S1x64 .f32) (w : FVec Ideal S64x32 .f32) (p : Fin 100000) (q : Fin 32) :
    dense2 a b w (ix2 p q) = ∑ k : Fin 64, leaky (a (ix2 p k) + b (ix2 0 k)) * w (ix2 k q) := rfl

/-! ## The sparse parts, as the array operations -/

variable {F : FTy → Type} [FloatOps F] [Cert.KernelIdeal.Facts]

/-- One row of the edge list followed by the self loops 0 … N-1: the source (row 0) or destination (row 1) of every
    edge of the graph with self loops. -/
def endpoints (r : Fin 2 → Nat) (hr : S2x1600000.Slices r S1x1600000)
    (e : (⟨S2x1600000, .i32⟩ : BufTy).Contents (Elt F)) : (⟨S1700000, .i32⟩ : BufTy).Contents (Elt F) :=
  concatenate S1700000 0 [⟨S1600000, (shapeCast _ (extractStridedSlice S1x1600000 r e hr) shapeCasts_S1x1600000_S1600000)⟩, ⟨S100000, (iotaInDim S100000 32 0)⟩] concatenates_S1600000_S100000_S1700000_d0

/-- Node indices as gather positions: a negative index counts from the end (N is added to it). -/
def wrapIdx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The edge coefficients: d^(-1/2) at the source times d^(-1/2) at the destination, d the number of edges (self loop
    included) arriving at a node. -/
def edgeNorm (src dst : (⟨S1700000, .i32⟩ : BufTy).Contents (Elt F)) : (⟨S1700000, .f32⟩ : BufTy).Contents (Elt F) :=
  mulf
    (Host.gather gather_S100000_S1700000x1_S1700000_n_0_n_n_0_1_1
      (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))))
      (wrapIdx src))
    (Host.gather gather_S100000_S1700000x1_S1700000_n_0_n_n_0_1_1
      (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))))
      (wrapIdx dst))

/-- Neighbourhood aggregation of 64-wide rows: gather the rows of h at the sources, scale each by its edge's
    coefficient, add each into its destination's row of a zero array. -/
def aggregate64 (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h (wrapIdx src))
      (broadcastInDim S1700000x64 ![0, 1] bcast_S1700000x1_S1700000x64_0_1 (broadcastInDim S1700000x1 ![0] bcast_S1700000_S1700000x1_0 nrm)))

/-- The same for 32-wide rows, with the output bias added to every row. -/
def aggregate32 (h : (⟨S100000x32, .f32⟩ : BufTy).Contents (Elt F)) (src dst : (⟨S1700000, .i32⟩ : BufTy).Contents (Elt F))
    (nrm : (⟨S1700000, .f32⟩ : BufTy).Contents (Elt F)) (b : (⟨S32, .f32⟩ : BufTy).Contents (Elt F)) : (⟨S100000x32, .f32⟩ : BufTy).Contents (Elt F) :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 dst)
      (mulf (Host.gather gather_S100000x32_S1700000x1_S1700000x32_1_0_n_n_0_1_132 h (wrapIdx src))
        (broadcastInDim S1700000x32 ![0, 1] bcast_S1700000x1_S1700000x32_0_1 (broadcastInDim S1700000x1 ![0] bcast_S1700000_S1700000x1_0 nrm))))
    (broadcastInDim S100000x32 ![0, 1] bcast_S1x32_S100000x32_0_1 (broadcastInDim S1x32 ![1] bcast_S32_S1x32_1 b))

end Cert.KernelIdeal.Layers

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Layer1Kernel.lean ====
import proofs.«178176_j85633057948392_1_alg».proof.Proof.Gen.KernelIdeal.Frame
import proofs.«178176_j85633057948392_1_alg».proof.Proof.Layers
import proofs.«178176_j85633057948392_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.KernelIdeal.Layers

/-- The zero offsets of a whole-buffer access, however they are spelt. -/
private theorem zero_offsets : (![0, 0] : Fin 2 → Nat) = fun _ => 0 := funext fun a => by fin_cases a <;> rfl

/-- The body's product at an entry: both operands narrowed (the identity on extended reals), multiplied into a zero
    accumulator: the plain sum over the contracted axis. -/
private theorem pay_apply (x0 : Vec Ideal S4000x64 .f32) (x1 : Vec Ideal S64x64 .f32) (p : Fin 4000) (q : Fin 64) :
    k0_pay1 (F := Ideal) x0 x1 (ix2 p q) = ∑ k : Fin 64, x0 (ix2 p k) * x1 (ix2 k q) := by
  unfold k0_pay1
  refine (Ideal.matmul_constant_zero_apply _ none _ _ (ix2 p q)).trans ?_
  exact PlainDot.sum_eq dot_S4000x64_S64x64_S4000x64_1_0_0_1_n_n rfl rfl rfl rfl rfl rfl _ _ p q

/-- The block index maps over the grid: the row-block windows sit at block (t, 0), the weight window at block (0, 0). -/
private theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/- The contents of the core's buffers when the region is entered: a parameter, as in the frame. -/
variable (V : (c : Dev nD) → (b : Ref sig .tc) → Buf (Elt Ideal) ((c : Thread nD τ).loc b))

/-- What a grid point writes back is the block of x W1 the point's output rectangle names: the payload is the plain
    sum over the input blocks, the row block of x sits at rows 4000 t + p, the weight block is the whole of W1. -/
private theorem flushed_eq (c : Dev nD) (t : Fin cfg0.N) :
    (dat0 (F := Ideal) V c).flushed 2 t
      = ((cfg0.win 2).blk t).view.read (Elt Ideal) (dense1 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S4000x64) zero_offsets, View.ld_unit_zero (S := S64x64) zero_offsets]
  obtain ⟨e0, e1, e2, e3, e4, e5⟩ := index_facts t
  have ht : t.val < 25 := lt_of_lt_of_eq t.isLt N_0
  funext j
  obtain ⟨p, q, rfl⟩ : ∃ (p : Fin 4000) (q : Fin 64), j = ix2 p q := ⟨j 0, j 1, eq_ix2 (n0 := 4000) (n1 := 64) j⟩
  have hp : t.val * 4000 + p.val < 100000 := by have := p.isLt; omega
  refine (pay_apply (iblk0 V c 0 t) (iblk0 V c 1 t) p q).trans ?_
  have hout : ((cfg0.win 2).blk t).view.emb (ix2 p q) = ix2 (n0 := 100000) (n1 := 64) ⟨t.val * 4000 + p.val, hp⟩ q := by
    funext a; apply Fin.ext
    match a with
    | ⟨0, _⟩ => show win0_2.index t (0 : Fin 2) * 4000 + 1 * p.val = t.val * 4000 + p.val; omega
    | ⟨1, _⟩ => show win0_2.index t (1 : Fin 2) * 64 + 1 * q.val = q.val; omega
  have hx : ∀ k : Fin 64, ((cfg0.win 0).blk t).view.emb (ix2 p k) = ix2 (n0 := 100000) (n1 := 64) ⟨t.val * 4000 + p.val, hp⟩ k := by
    intro k; funext a; apply Fin.ext
    match a with
    | ⟨0, _⟩ => show win0_0.index t (0 : Fin 2) * 4000 + 1 * p.val = t.val * 4000 + p.val; omega
    | ⟨1, _⟩ => show win0_0.index t (1 : Fin 2) * 64 + 1 * k.val = k.val; omega
  have hw : ∀ k : Fin 64, ((cfg0.win 1).blk t).view.emb (ix2 k q) = ix2 (n0 := 64) (n1 := 64) k q := by
    intro k; funext a; apply Fin.ext
    match a with
    | ⟨0, _⟩ => show win0_1.index t (0 : Fin 2) * 64 + 1 * k.val = k.val; omega
    | ⟨1, _⟩ => show win0_1.index t (1 : Fin 2) * 64 + 1 * q.val = q.val; omega
  show _ = dense1 (V c main_arg0) (V c main_arg2) (((cfg0.win 2).blk t).view.emb (ix2 p q))
  rw [hout, dense1_apply]
  refine Finset.sum_congr rfl fun k _ => ?_
  refine congrArg₂ (fun a b : Ideal .f32 => a * b) ?_ ?_
  · show V c main_arg0 (((cfg0.win 0).blk t).view.emb (ix2 p k)) = _
    rw [hx k]
  · show V c main_arg2 (((cfg0.win 1).blk t).view.emb (ix2 k q)) = _
    rw [hw k]

/-- An index of the array is in a point's output block iff each coordinate is in the block's range on its axis. -/
private theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v27).slice (win0_2.rect t)).set ↔ _
  rw [View.set_slice_whole, Rect.mem_set_unit]
  exact Iff.rfl

/-- Row r of the array lies in the output block of the point r / 4000, which writes its block back. -/
private theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨e0, e1, e2, e3, e4, e5⟩ := index_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- After the first region's last grid point its output array is x W1, whatever the buffers held on entry. -/
theorem final (c : Dev nD) :
    (dat0 (F := Ideal) V c).arrAt 2 cfg0.N = dense1 (V c main_arg0) (V c main_arg2) :=
  (dat0 (F := Ideal) V c).arrAt_eq_of_cover 2 (dense1 (V c main_arg0) (V c main_arg2)) (fun t _ => flushed_eq V c t) cover

end Cert.KernelIdeal.Layer1

end
-- ==== Proof.Layer2Kernel.lean ====
import proofs.«178176_j85633057948392_1_alg».proof.Proof.Gen.KernelIdeal.Frame
import proofs.«178176_j85633057948392_1_alg».proof.Proof.Layers
import proofs.«178176_j85633057948392_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.KernelIdeal.Layers

/-- The body's payload at (p, q): the plain sum over k of leaky(x0(p, k) + x1(0, k)) x2(k, q). -/
private theorem pay_apply (x0 : Vec Ideal S4000x64 .f32) (x1 : Vec Ideal S1x64 .f32) (x2 : Vec Ideal S64x32 .f32) (p : Fin 4000) (q : Fin 32) :
    k1_pay1 (F := Ideal) x0 x1 x2 (ix2 p q) = ∑ k : Fin 64, leaky (x0 (ix2 p k) + x1 (ix2 0 k)) * x2 (ix2 k q) := by
  unfold k1_pay1
  refine (Ideal.matmul_constant_zero_apply _ none _ _ _).trans ?_
  refine (PlainDot.sum_eq dot_S4000x64_S64x32_S4000x32_1_0_0_1_n_n rfl rfl rfl rfl rfl rfl _ _ p q).trans ?_
  refine Finset.sum_congr rfl fun k _ => ?_
  rw [truncf_apply, truncf_apply, select_apply, cmpf_apply, mulf_apply, addf_apply, broadcast_apply, broadcast_apply,
    shapeCast_self, shapeCast_self, broadcastTo_1b_ab_apply]
  rfl

/-- The four windows' block indices at grid point t: the row windows (aggregate in, result out) sit at block (t, 0);
    the bias row and the weight matrix are one block each, at (0, 0). -/
private theorem idx_facts : ∀ t : Fin cfg1.N, win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0 :=
  (by decide +kernel : ∀ t : Fin grid1.N, _)

/-- The zero offsets, as the constant function. -/
private theorem hz : (![0, 0] : Fin 2 → Nat) = fun _ => 0 := funext fun a => by fin_cases a <;> rfl

/- The contents of the core's buffers when the region is entered: a parameter, as in the frame. -/
variable (V : (c : Dev nD) → (b : Ref sig .tc) → Buf (Elt Ideal) ((c : Thread nD τ).loc b))

/-- The aggregate's block at point t is rows 4000 t … 4000 t + 3999 of the aggregate. -/
private theorem iblk_agg_apply (c : Dev nD) (t : Fin cfg1.N) (x : S4000x64.Idx) (k : S100000x64.Idx)
    (hk0 : (k 0).val = t.val * 4000 + (x 0).val) (hk1 : (k 1).val = (x 1).val) :
    (iblk1 (F := Ideal) V c 0 t : Vec Ideal S4000x64 .f32) x = (V c main_v40 : S100000x64.Idx → Ideal .f32) k := by
  obtain ⟨e0, e1, -⟩ := idx_facts t
  unfold iblk1
  rw [View.read_apply]
  show V c main_v40 _ = V c main_v40 _
  congr 1
  funext a
  apply Fin.ext
  match a with
  | ⟨0, _⟩ => show win1_0.index t 0 * 4000 + 1 * (x 0).val = (k 0).val; rw [e0, hk0]; omega
  | ⟨1, _⟩ => show win1_0.index t 1 * 64 + 1 * (x 1).val = (k 1).val; rw [e1, hk1]; omega

/-- The bias row's block at every point is the whole row. -/
private theorem iblk_bias_apply (c : Dev nD) (t : Fin cfg1.N) (x : S1x64.Idx) :
    (iblk1 (F := Ideal) V c 1 t : Vec Ideal S1x64 .f32) x = (V c main_v41 : S1x64.Idx → Ideal .f32) x := by
  obtain ⟨-, -, e2, e3, -⟩ := idx_facts t
  unfold iblk1
  rw [View.read_apply]
  show V c main_v41 _ = V c main_v41 _
  congr 1
  funext a
  apply Fin.ext
  match a with
  | ⟨0, _⟩ => show win1_1.index t 0 * 1 + 1 * (x 0).val = (x 0).val; rw [e2]; omega
  | ⟨1, _⟩ => show win1_1.index t 1 * 64 + 1 * (x 1).val = (x 1).val; rw [e3]; omega

/-- The weight matrix's block at every point is the whole matrix. -/
private theorem iblk_w_apply (c : Dev nD) (t : Fin cfg1.N) (x : S64x32.Idx) :
    (iblk1 (F := Ideal) V c 2 t : Vec Ideal S64x32 .f32) x = (V c main_arg4 : S64x32.Idx → Ideal .f32) x := by
  obtain ⟨-, -, -, -, e4, e5, -⟩ := idx_facts t
  unfold iblk1
  rw [View.read_apply]
  show V c main_arg4 _ = V c main_arg4 _
  congr 1
  funext a
  apply Fin.ext
  match a with
  | ⟨0, _⟩ => show win1_2.index t 0 * 64 + 1 * (x 0).val = (x 0).val; rw [e4]; omega
  | ⟨1, _⟩ => show win1_2.index t 1 * 32 + 1 * (x 1).val = (x 1).val; rw [e5]; omega

/-- What point t writes back is block t of leaky(agg + b1) W2: rows 4000 t … 4000 t + 3999. -/
private theorem flushed_eq (c : Dev nD) (t : Fin cfg1.N) :
    (dat1 (F := Ideal) V c).flushed 3 t
      = ((cfg1.win 3).blk t).view.read (Elt Ideal) (dense2 (V c main_v40) (V c main_v41) (V c main_arg4)) := by
  show (cfg1.win 3).cut (grid1.coords t) ((dat1 V c).after 3 t) = _
  rw [after1_3]
  unfold out1_3
  rw [View.canon_unit_zero hz]
  simp only [View.ld_unit_zero (S := S4000x64) hz, View.ld_unit_zero (S := S1x64) hz, View.ld_unit_zero (S := S64x32) hz]
  obtain ⟨-, -, -, -, -, -, e6, e7⟩ := idx_facts t
  funext j
  have hj0 : (j 0).val < 4000 := (j 0).isLt
  have hj1 : (j 1).val < 32 := (j 1).isLt
  have ht : t.val < 25 := by have h : t.val < grid1.N := t.isLt; have hN : grid1.N = 25 := N_1; omega
  have hL : (cfg1.win 3).xinj (grid1.coords t) j = ix2 (⟨(j 0).val, hj0⟩ : Fin 4000) (⟨(j 1).val, hj1⟩ : Fin 32) := by
    funext a
    match a with
    | ⟨0, _⟩ => rfl
    | ⟨1, _⟩ => rfl
  have hR : ((cfg1.win 3).blk t).view.emb j = ix2 (⟨t.val * 4000 + (j 0).val, by omega⟩ : Fin 100000) (⟨(j 1).val, hj1⟩ : Fin 32) := by
    funext a
    apply Fin.ext
    match a with
    | ⟨0, _⟩ => show win1_3.index t 0 * 4000 + 1 * (j 0).val = t.val * 4000 + (j 0).val; rw [e6]; omega
    | ⟨1, _⟩ => show win1_3.index t 1 * 32 + 1 * (j 1).val = (j 1).val; rw [e7]; omega
  rw [View.read_apply]
  show k1_pay1 _ _ _ ((cfg1.win 3).xinj (grid1.coords t) j) = dense2 _ _ _ (((cfg1.win 3).blk t).view.emb j)
  rw [hL, hR, pay_apply, dense2_apply]
  refine Finset.sum_congr rfl fun k _ => ?_
  rw [iblk_agg_apply V c t (ix2 (⟨(j 0).val, hj0⟩ : Fin 4000) k) (ix2 (⟨t.val * 4000 + (j 0).val, by omega⟩ : Fin 100000) k) rfl rfl,
    iblk_bias_apply, iblk_w_apply]

/-- An index of the result array is in point t's block iff each coordinate is in the block's range on its axis. -/
private theorem mem_blk (t : Fin cfg1.N) (i : S100000x32.Idx) :
    i ∈ ((cfg1.win 3).blk t).view.set ↔ ∀ a : Fin 2, win1_3.index t a * S4000x32.size a ≤ (i a).val
      ∧ (i a).val < win1_3.index t a * S4000x32.size a + S4000x32.size a := by
  show i ∈ ((View.whole main_v42).slice (win1_3.rect t)).set ↔ _
  rw [View.set_slice_whole, Rect.mem_set_unit]
  exact Iff.rfl

/-- Row r of the result array is in the block of point r / 4000: the 25 blocks of 4000 rows cover the 100000 rows. -/
private theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : grid1.N = 25 := N_1
  have htl : (i 0).val / 4000 < grid1.N := by omega
  obtain ⟨-, -, -, -, -, -, e6, e7⟩ := idx_facts ⟨(i 0).val / 4000, htl⟩
  refine ⟨⟨(i 0).val / 4000, htl⟩, flush1_3 _, ?_⟩
  rw [mem_blk]
  intro a
  match a with
  | ⟨0, _⟩ =>
    show win1_3.index ⟨(i 0).val / 4000, htl⟩ 0 * 4000 ≤ (i 0).val ∧ (i 0).val < win1_3.index ⟨(i 0).val / 4000, htl⟩ 0 * 4000 + 4000
    rw [e6]
    show (i 0).val / 4000 * 4000 ≤ (i 0).val ∧ (i 0).val < (i 0).val / 4000 * 4000 + 4000
    omega
  | ⟨1, _⟩ =>
    show win1_3.index ⟨(i 0).val / 4000, htl⟩ 1 * 32 ≤ (i 1).val ∧ (i 1).val < win1_3.index ⟨(i 0).val / 4000, htl⟩ 1 * 32 + 32
    rw [e7]
    omega

/-- After the second region's last grid point its output array is leaky(agg + b1) W2 of the three arrays it reads,
    whatever the buffers held on entry. -/
theorem final (c : Dev nD) :
    (dat1 (F := Ideal) V c).arrAt 3 cfg1.N = dense2 (V c main_v40) (V c main_v41) (V c main_arg4) :=
  (dat1 (F := Ideal) V c).arrAt_eq_of_cover 3 (dense2 (V c main_v40) (V c main_v41) (V c main_arg4))
    (fun t _ => flushed_eq V c t) cover

end Cert.KernelIdeal.Layer2

end
-- ==== Proof.KernelValue.lean ====
/-
  The kernel program's result as one term of the argument arrays.

  The program is five stretches: host operations that build the edge endpoints (with self loops) and the edge
  coefficients; the first dense map x W1 as a tiled region; the first neighbourhood aggregation and the bias row; the
  second dense map, with bias and rectifier inside, as a tiled region; the second aggregation and the output bias.
  Reading the buffers boundary by boundary, each stretch's results are the stretch's operations applied to what the
  boundary before it holds, a region's output array is its dense map of the arrays it reads, and nothing else changes
  inside a region.  Composed, the result buffer holds
      aggregate32 (dense2 (aggregate64 (dense1 x W1) src dst nrm) (b1 as a row) W2) src dst nrm b2.
-/
import proofs.«178176_j85633057948392_1_alg».proof.Proof.Gen.KernelIdeal.Frame
import proofs.«178176_j85633057948392_1_alg».proof.Proof.Layers
import proofs.«178176_j85633057948392_1_alg».proof.Proof.Layer1Kernel
import proofs.«178176_j85633057948392_1_alg».proof.Proof.Layer2Kernel
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen Cert.KernelIdeal.Layers

/-- The rewriting half of reading a fold of host operations at a buffer, usable when the fold has already been opened. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ) (ρ : Dev nD → PrngReg)

/-- Sources of all edges, self loops included, from the launch contents of the edge list. -/
abbrev src (c : Dev nD) := endpoints (F := Ideal) ![0, 0] Facts₀.slices_S2x1600000_S1x1600000_0_0 (m ((c.tc : Thread nD τ).loc main_arg1))
/-- Destinations of all edges, self loops included. -/
abbrev dst (c : Dev nD) := endpoints (F := Ideal) ![1, 0] Facts₀.slices_S2x1600000_S1x1600000_1_0 (m ((c.tc : Thread nD τ).loc main_arg1))
/-- The edge coefficients. -/
abbrev nrm (c : Dev nD) := edgeNorm (F := Ideal) (src m c) (dst m c)

/-! ## Before the first region -/

theorem at1_src (c : Dev nD) : W1 m ρ c (Proc.devRef .tc main_v3) = src m c := by
  show StableHlo.after hostOps0 (W0 m ρ c) (Proc.devRef .tc main_v3) = _
  after_results
  rfl

theorem at1_dst (c : Dev nD) : W1 m ρ c (Proc.devRef .tc main_v6) = dst m c := by
  show StableHlo.after hostOps0 (W0 m ρ c) (Proc.devRef .tc main_v6) = _
  after_results
  rfl

theorem at1_nrm (c : Dev nD) : W1 m ρ c (Proc.devRef .tc main_v26) = nrm m c := by
  show StableHlo.after hostOps0 (W0 m ρ c) (Proc.devRef .tc main_v26) = _
  after_results_simp
  results_rw
  rfl

/-- The arguments are untouched by the first stretch. -/
theorem at1_x (c : Dev nD) : W1 m ρ c (Proc.devRef .tc main_arg0) = m ((c.tc : Thread nD τ).loc main_arg0) := by
  show StableHlo.after hostOps0 (W0 m ρ c) (Proc.devRef .tc main_arg0) = _
  after_results_simp <;> rfl
theorem at1_w1 (c : Dev nD) : W1 m ρ c (Proc.devRef .tc main_arg2) = m ((c.tc : Thread nD τ).loc main_arg2) := by
  show StableHlo.after hostOps0 (W0 m ρ c) (Proc.devRef .tc main_arg2) = _
  after_results_simp <;> rfl
theorem at1_b1 (c : Dev nD) : W1 m ρ c (Proc.devRef .tc main_arg3) = m ((c.tc : Thread nD τ).loc main_arg3) := by
  show StableHlo.after hostOps0 (W0 m ρ c) (Proc.devRef .tc main_arg3) = _
  after_results_simp <;> rfl
theorem at1_w2 (c : Dev nD) : W1 m ρ c (Proc.devRef .tc main_arg4) = m ((c.tc : Thread nD τ).loc main_arg4) := by
  show StableHlo.after hostOps0 (W0 m ρ c) (Proc.devRef .tc main_arg4) = _
  after_results_simp <;> rfl
theorem at1_b2 (c : Dev nD) : W1 m ρ c (Proc.devRef .tc main_arg5) = m ((c.tc : Thread nD τ).loc main_arg5) := by
  show StableHlo.after hostOps0 (W0 m ρ c) (Proc.devRef .tc main_arg5) = _
  after_results_simp <;> rfl

/-! ## After the first region: its output array is x W1, everything else as before -/

theorem at2_h1 (c : Dev nD) :
    W2 m ρ c (Proc.devRef .tc main_v27) = dense1 (m ((c.tc : Thread nD τ).loc main_arg0)) (m ((c.tc : Thread nD τ).loc main_arg2)) := by
  refine (W2_arr m ρ c 2).trans ?_
  refine (Layer1.final (V1 m ρ) c).trans ?_
  show dense1 (W1 m ρ c (Proc.devRef .tc main_arg0)) (W1 m ρ c (Proc.devRef .tc main_arg2)) = _
  rw [at1_x, at1_w1]

theorem at2_src (c : Dev nD) : W2 m ρ c (Proc.devRef .tc main_v3) = src m c :=
  (W2_of_ne m ρ c main_v3 (by decide)).trans (at1_src m ρ c)
theorem at2_dst (c : Dev nD) : W2 m ρ c (Proc.devRef .tc main_v6) = dst m c :=
  (W2_of_ne m ρ c main_v6 (by decide)).trans (at1_dst m ρ c)
theorem at2_nrm (c : Dev nD) : W2 m ρ c (Proc.devRef .tc main_v26) = nrm m c :=
  (W2_of_ne m ρ c main_v26 (by decide)).trans (at1_nrm m ρ c)
theorem at2_b1 (c : Dev nD) : W2 m ρ c (Proc.devRef .tc main_arg3) = m ((c.tc : Thread nD τ).loc main_arg3) :=
  (W2_of_ne m ρ c main_arg3 (by decide)).trans (at1_b1 m ρ c)
theorem at2_w2 (c : Dev nD) : W2 m ρ c (Proc.devRef .tc main_arg4) = m ((c.tc : Thread nD τ).loc main_arg4) :=
  (W2_of_ne m ρ c main_arg4 (by decide)).trans (at1_w2 m ρ c)
theorem at2_b2 (c : Dev nD) : W2 m ρ c (Proc.devRef .tc main_arg5) = m ((c.tc : Thread nD τ).loc main_arg5) :=
  (W2_of_ne m ρ c main_arg5 (by decide)).trans (at1_b2 m ρ c)

/-! ## After the second stretch: the first aggregation and the bias row -/

/-- The first layer's aggregate before the bias. -/
abbrev agg1 (c : Dev nD) :=
  aggregate64 (F := Ideal) (dense1 (m ((c.tc : Thread nD τ).loc main_arg0)) (m ((c.tc : Thread nD τ).loc main_arg2))) (src m c) (dst m c) (nrm m c)

theorem at3_agg (c : Dev nD) : W3 m ρ c (Proc.devRef .tc main_v40) = agg1 m c := by
  show StableHlo.after hostOps1 (W2 m ρ c) (Proc.devRef .tc main_v40) = _
  after_results_simp
  rw [at2_h1, at2_src, at2_dst, at2_nrm]
  rfl

theorem at3_b1row (c : Dev nD) :
    W3 m ρ c (Proc.devRef .tc main_v41) = shapeCast S1x64 (m ((c.tc : Thread nD τ).loc main_arg3)) Facts₀.shapeCasts_S64_S1x64 := by
  show StableHlo.after hostOps1 (W2 m ρ c) (Proc.devRef .tc main_v41) = _
  after_results
  rw [at2_b1]
  rfl

theorem at3_src (c : Dev nD) : W3 m ρ c (Proc.devRef .tc main_v3) = src m c := by
  show StableHlo.after hostOps1 (W2 m ρ c) (Proc.devRef .tc main_v3) = _
  after_results_simp
  exact at2_src m ρ c
theorem at3_dst (c : Dev nD) : W3 m ρ c (Proc.devRef .tc main_v6) = dst m c := by
  show StableHlo.after hostOps1 (W2 m ρ c) (Proc.devRef .tc main_v6) = _
  after_results_simp
  exact at2_dst m ρ c
theorem at3_nrm (c : Dev nD) : W3 m ρ c (Proc.devRef .tc main_v26) = nrm m c := by
  show StableHlo.after hostOps1 (W2 m ρ c) (Proc.devRef .tc main_v26) = _
  after_results_simp
  exact at2_nrm m ρ c
theorem at3_w2 (c : Dev nD) : W3 m ρ c (Proc.devRef .tc main_arg4) = m ((c.tc : Thread nD τ).loc main_arg4) := by
  show StableHlo.after hostOps1 (W2 m ρ c) (Proc.devRef .tc main_arg4) = _
  after_results_simp
  exact at2_w2 m ρ c
theorem at3_b2 (c : Dev nD) : W3 m ρ c (Proc.devRef .tc main_arg5) = m ((c.tc : Thread nD τ).loc main_arg5) := by
  show StableHlo.after hostOps1 (W2 m ρ c) (Proc.devRef .tc main_arg5) = _
  after_results_simp
  exact at2_b2 m ρ c

/-! ## After the second region: its output array is the second dense map, everything else as before -/

/-- The second layer's dense result. -/
abbrev h2 (c : Dev nD) :=
  dense2 (agg1 m c) (shapeCast S1x64 (m ((c.tc : Thread nD τ).loc main_arg3)) Facts₀.shapeCasts_S64_S1x64) (m ((c.tc : Thread nD τ).loc main_arg4))

theorem at4_h2 (c : Dev nD) : W4 m ρ c (Proc.devRef .tc main_v42) = h2 m c := by
  refine (W4_arr m ρ c 3).trans ?_
  refine (Layer2.final (V3 m ρ) c).trans ?_
  show dense2 (W3 m ρ c (Proc.devRef .tc main_v40)) (W3 m ρ c (Proc.devRef .tc main_v41)) (W3 m ρ c (Proc.devRef .tc main_arg4)) = _
  rw [at3_agg, at3_b1row, at3_w2]

theorem at4_src (c : Dev nD) : W4 m ρ c (Proc.devRef .tc main_v3) = src m c :=
  (W4_of_ne m ρ c main_v3 (by decide)).trans (at3_src m ρ c)
theorem at4_dst (c : Dev nD) : W4 m ρ c (Proc.devRef .tc main_v6) = dst m c :=
  (W4_of_ne m ρ c main_v6 (by decide)).trans (at3_dst m ρ c)
theorem at4_nrm (c : Dev nD) : W4 m ρ c (Proc.devRef .tc main_v26) = nrm m c :=
  (W4_of_ne m ρ c main_v26 (by decide)).trans (at3_nrm m ρ c)
theorem at4_b2 (c : Dev nD) : W4 m ρ c (Proc.devRef .tc main_arg5) = m ((c.tc : Thread nD τ).loc main_arg5) :=
  (W4_of_ne m ρ c main_arg5 (by decide)).trans (at3_b2 m ρ c)

/-! ## After the last stretch: the result -/

/-- What the result buffer ends holding, as one term of the arguments. -/
abbrev result (c : Dev nD) :=
  aggregate32 (F := Ideal) (h2 m c) (src m c) (dst m c) (nrm m c) (m ((c.tc : Thread nD τ).loc main_arg5))

theorem at5_out (c : Dev nD) : W5 m ρ c (Proc.devRef .tc main_v58) = result m c := by
  show StableHlo.after hostOps2 (W4 m ρ c) (Proc.devRef .tc main_v58) = _
  after_results_simp
  rw [at4_h2, at4_src, at4_dst, at4_nrm, at4_b2]
  rfl

end Cert.KernelIdeal.Whole

end
-- ==== Proof.Layer1Ref.lean ====
import proofs.«178176_j85633057948392_1_alg».proof.ReferenceIdeal
import proofs.«178176_j85633057948392_1_alg».proof.Proof.Layers
import proofs.«178176_j85633057948392_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.ReferenceIdeal.Layer1

open Cert.ReferenceIdeal Cert.ReferenceIdeal.Facts₀ Cert.KernelIdeal.Layers

variable [Cert.ReferenceIdeal.Facts] [Cert.KernelIdeal.Facts]

/-- The host's matrix product x W1 on the extended reals is the plain sum over the contracted axis. -/
theorem dot_eq (x : FVec Ideal S100000x64 .f32) (w : FVec Ideal S64x64 .f32) :
    Host.dotGeneral dot_S100000x64_S64x64_S100000x64_1_0_0_1_n_n none x w = dense1 x w := by
  funext j
  obtain ⟨p, q, rfl⟩ : ∃ (p : Fin 100000) (q : Fin 64), j = ix2 p q := ⟨j 0, j 1, eq_ix2 j⟩
  simp only [Host.dotGeneral]
  rw [Ideal.dotGeneral_apply, dense1_apply]
  exact PlainDot.sum_eq _ rfl rfl rfl rfl rfl rfl x w p q

end Cert.ReferenceIdeal.Layer1

end
-- ==== Proof.Layer2Ref.lean ====
import proofs.«178176_j85633057948392_1_alg».proof.ReferenceIdeal
import proofs.«178176_j85633057948392_1_alg».proof.Proof.Layers
import proofs.«178176_j85633057948392_1_alg».proof.Proof.LibPlainDot
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

open Idealize.ShloMosaic Idealize.ShloMosaic.ValueIdx

namespace Cert.ReferenceIdeal.Layer2

open Cert.ReferenceIdeal Cert.ReferenceIdeal.Facts₀ Cert.KernelIdeal.Layers

variable [Cert.ReferenceIdeal.Facts] [Cert.KernelIdeal.Facts]

/-- The bias as one row: entry (0, k) of the reshaped bias is entry k of the bias. -/
theorem biasRow_apply (b : FVec Ideal S64 .f32) (k : Fin 64) :
    (shapeCast Cert.KernelIdeal.S1x64 b Cert.KernelIdeal.Facts₀.shapeCasts_S64_S1x64 : FVec Ideal Cert.KernelIdeal.S1x64 .f32) (ix2 0 k) = b (ix1 k) :=
  shapeCast_a_1a_apply b _ 0 k

/-- The bias laid along every row, read at (p, k), is entry k of the bias: the row (0, k) of the one-row array, which
    reads the bias along its axis 1. -/
private theorem biasRows_apply (b : FVec Ideal S64 .f32) (p : Fin 100000) (k : Fin 64) :
    (broadcastInDim S100000x64 ![0, 1] bcast_S1x64_S100000x64_0_1 (broadcastInDim S1x64 ![1] bcast_S64_S1x64_1 b)) (ix2 p k) = b (ix1 k) := by
  refine (broadcastInDim_oneRow_apply bcast_S1x64_S100000x64_0_1 _ p k).trans ?_
  refine broadcastInDim_apply ![1] bcast_S64_S1x64_1 b _ (ix1 k) fun a => ?_
  match a with
  | ⟨0, _⟩ => rfl

/-- The host's second matrix product, applied to the rectified biased aggregate, on the extended reals: the plain sum
    over the contracted axis of leaky(a(p, k) + b(k)) W2(k, q). -/
theorem dot_eq (a : FVec Ideal S100000x64 .f32) (b : FVec Ideal S64 .f32) (w : FVec Ideal S64x32 .f32) :
    Host.dotGeneral dot_S100000x64_S64x32_S100000x32_1_0_0_1_n_n none
      (select
        (cmpf .ogt (addf a (broadcastInDim S100000x64 ![0, 1] bcast_S1x64_S100000x64_0_1 (broadcastInDim S1x64 ![1] bcast_S64_S1x64_1 b)))
          (broadcastInDim S100000x64 ![] bcast_S_S100000x64 (constant S_ .f32 0x00000000#32)))
        (addf a (broadcastInDim S100000x64 ![0, 1] bcast_S1x64_S100000x64_0_1 (broadcastInDim S1x64 ![1] bcast_S64_S1x64_1 b)))
        (mulf (broadcastInDim S100000x64 ![] bcast_S_S100000x64 (constant S_ .f32 0x3C23D70A#32))
          (addf a (broadcastInDim S100000x64 ![0, 1] bcast_S1x64_S100000x64_0_1 (broadcastInDim S1x64 ![1] bcast_S64_S1x64_1 b)))))
      w
    = dense2 a (shapeCast Cert.KernelIdeal.S1x64 b Cert.KernelIdeal.Facts₀.shapeCasts_S64_S1x64) w := by
  funext j
  obtain ⟨p, q, rfl⟩ : ∃ (p : Fin 100000) (q : Fin 32), j = ix2 p q := ⟨j 0, j 1, eq_ix2 j⟩
  simp only [Host.dotGeneral]
  rw [Ideal.dotGeneral_apply, dense2_apply]
  refine (PlainDot.sum_eq _ rfl rfl rfl rfl rfl rfl _ w p q).trans ?_
  refine Finset.sum_congr rfl fun k _ => ?_
  rw [select_apply, cmpf_apply, mulf_apply, addf_apply, biasRows_apply, broadcastInDim_scalar_apply,
    broadcastInDim_scalar_apply, constant_apply, constant_apply, biasRow_apply]
  rfl

end Cert.ReferenceIdeal.Layer2

end
-- ==== Proof.RefValue.lean ====
/-
  The reference program's result as the same term of the argument arrays as the kernel program's.

  The reference computes both layers on the host: the matrix product x W1, the aggregation, the bias and the leaky
  rectifier, the matrix product with W2, the second aggregation and the output bias.  Its composed term differs from
  the kernel program's only in the two dense parts, and each of those is the plain sum over the contracted axis: the
  first matrix product is dense1, and the second, taken together with the bias and the rectifier in front of it, is
  dense2 with the bias read as one row.  Everything around them, the endpoints, the edge coefficients and the two
  aggregations, is the same array operations applied to the same arrays.
-/
import proofs.«178176_j85633057948392_1_alg».proof.Proof.Gen.ReferenceIdeal.Run
import proofs.«178176_j85633057948392_1_alg».proof.Proof.Gen.KernelIdeal
import proofs.«178176_j85633057948392_1_alg».proof.Proof.Layers
import proofs.«178176_j85633057948392_1_alg».proof.Proof.Layer1Ref
import proofs.«178176_j85633057948392_1_alg».proof.Proof.Layer2Ref

set_option maxRecDepth 16384

noncomputable section

open Idealize.ShloMosaic Idealize.ShloMosaic.TcCoe Idealize.SL.Sem

namespace Cert.ReferenceIdeal.Whole

open Cert.ReferenceIdeal Cert.KernelIdeal.Layers

variable (m : (ℓ : Loc nD τ sig) → Buf (Elt Ideal) ℓ)

/-- Sources of all edges, self loops included, from the launch contents of the edge list. -/
abbrev src (c : Dev nD) := endpoints (F := Ideal) ![0, 0] Cert.KernelIdeal.Facts₀.slices_S2x1600000_S1x1600000_0_0 (m ((c.tc : Thread nD τ).loc main_arg1))
/-- Destinations of all edges, self loops included. -/
abbrev dst (c : Dev nD) := endpoints (F := Ideal) ![1, 0] Cert.KernelIdeal.Facts₀.slices_S2x1600000_S1x1600000_1_0 (m ((c.tc : Thread nD τ).loc main_arg1))
/-- The edge coefficients. -/
abbrev nrm (c : Dev nD) := edgeNorm (F := Ideal) (src m c) (dst m c)
/-- The first layer's aggregate before the bias. -/
abbrev agg1 (c : Dev nD) :=
  aggregate64 (F := Ideal) (dense1 (m ((c.tc : Thread nD τ).loc main_arg0)) (m ((c.tc : Thread nD τ).loc main_arg2))) (src m c) (dst m c) (nrm m c)
/-- The second layer's dense result. -/
abbrev h2 (c : Dev nD) :=
  dense2 (agg1 m c) (shapeCast Cert.KernelIdeal.S1x64 (m ((c.tc : Thread nD τ).loc main_arg3)) Cert.KernelIdeal.Facts₀.shapeCasts_S64_S1x64) (m ((c.tc : Thread nD τ).loc main_arg4))
/-- The result as one term of the arguments. -/
abbrev result (c : Dev nD) :=
  aggregate32 (F := Ideal) (h2 m c) (src m c) (dst m c) (nrm m c) (m ((c.tc : Thread nD τ).loc main_arg5))

/-- The reference's composed term is that term: the two dense parts rewritten to their plain sums, the rest the same
    operations. -/
theorem result_eq (c : Dev nD) : Cert.ReferenceIdeal.Value.res_main_v65 (F := Ideal) m c = result m c := by
  unfold Cert.ReferenceIdeal.Value.res_main_v65
  rw [Layer1.dot_eq, Layer2.dot_eq]
  rfl

end Cert.ReferenceIdeal.Whole

end
-- ==== Proof.lean ====
/-
  A two-layer graph convolution, tiled against plain array code.

  Both programs compute  out = A_hat (leaky(A_hat (x W1) + b1) W2) + b2,  where A_hat is the symmetrically normalised
  adjacency of the graph with self loops, applied as gather, scale and scatter-add along the edge list.  The kernel
  program computes the two dense maps in tiled regions, 4000 rows of the node axis at a grid point: the first region
  is x W1; the second adds the bias row, applies the leaky rectifier and multiplies by W2.  The reference computes the
  same maps as whole-array matrix products with the bias and rectifier as separate array operations.

  On the extended reals a change of float format is the identity and a matrix product is the plain sum over the
  contracted axis, whatever the tiling: a row tile's product is the same sum over k as the whole array's product at
  that row.  So each region's output array is the reference's dense map (Layer1Kernel, Layer2Kernel against Layer1Ref,
  Layer2Ref), the bias, the comparison with zero and the slope literal being the same on both sides.  The sparse
  parts, the endpoints with self loops, the edge coefficients and the two aggregations, are the same array operations
  applied to the same arrays in both programs, so they are carried along unopened (KernelValue, RefValue).  No
  finiteness of the inputs is used: no law beyond reading sums index by index is needed.

  The frames of the two kernel programs are the generated ones; the kernel program's run with its result named repeats
  the generated frame's launch (KernelRun); the reference's frame and value are its generated run.
-/
import proofs.«178176_j85633057948392_1_alg».proof.Defs
import proofs.«178176_j85633057948392_1_alg».proof.Proof.Gen.Kernel
import proofs.«178176_j85633057948392_1_alg».proof.Proof.Gen.Kernel.Skeleton
import proofs.«178176_j85633057948392_1_alg».proof.Proof.Gen.Kernel.Launch
import proofs.«178176_j85633057948392_1_alg».proof.Proof.Gen.Kernel.Points
import proofs.«178176_j85633057948392_1_alg».proof.Proof.Gen.Kernel.Frame
import proofs.«178176_j85633057948392_1_alg».proof.Proof.Gen.KernelIdeal
import proofs.«178176_j85633057948392_1_alg».proof.Proof.Gen.KernelIdeal.Skeleton
import proofs.«178176_j85633057948392_1_alg».proof.Proof.Gen.KernelIdeal.Launch
import proofs.«178176_j85633057948392_1_alg».proof.Proof.Gen.KernelIdeal.Points
import proofs.«178176_j85633057948392_1_alg».proof.Proof.Gen.KernelIdeal.Frame
import proofs.«178176_j85633057948392_1_alg».proof.Proof.Gen.ReferenceIdeal
import proofs.«178176_j85633057948392_1_alg».proof.Proof.Gen.Pre_finite_inputs
import proofs.«178176_j85633057948392_1_alg».proof.Proof.Gen.ReferenceIdeal.Run
import proofs.«178176_j85633057948392_1_alg».proof.Proof.KernelRun
import proofs.«178176_j85633057948392_1_alg».proof.Proof.KernelValue
import proofs.«178176_j85633057948392_1_alg».proof.Proof.RefValue
import Idealize.ShloMosaic.Adequacy
import Idealize.ShloMosaic.Init

noncomputable section

namespace Cert.Proof

open Idealize.ShloMosaic Idealize.SL.Sem

/-- The word-level kernel program terminates without a fault and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments both programs end with the result buffer at the same term of the
    arguments: the two aggregations around the two dense maps. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun _ h c => ⟨(h c).1.trans (Cert.KernelIdeal.Whole.at5_out m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Whole.result_eq]
    obtain ⟨h0, h1, h2, h3, h4, h5⟩ := hagree c
    show Cert.ReferenceIdeal.Whole.result m' c = Cert.KernelIdeal.Whole.result m c
    dsimp only [Cert.ReferenceIdeal.Whole.result, Cert.ReferenceIdeal.Whole.h2, Cert.ReferenceIdeal.Whole.agg1,
      Cert.ReferenceIdeal.Whole.nrm, Cert.ReferenceIdeal.Whole.src, Cert.ReferenceIdeal.Whole.dst,
      Cert.KernelIdeal.Whole.result, Cert.KernelIdeal.Whole.h2, Cert.KernelIdeal.Whole.agg1,
      Cert.KernelIdeal.Whole.nrm, Cert.KernelIdeal.Whole.src, Cert.KernelIdeal.Whole.dst]
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
